-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S1x1024x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x128 : Shape := ⟨4, ![2, 16, 2048, 128]⟩
abbrev S_ : Shape := ⟨0, ![]⟩

class Facts : Prop where
  bcast_S_S2x16x2048x128 : S_.BroadcastsInDim S2x16x2048x128 (![] : Fin 0 → Fin S2x16x2048x128.rank)
  reducesTo_S2x16x2048x128_S_d0_1_2_3 : S2x16x2048x128.ReducesTo [0, 1, 2, 3] S_
  h_S_ : 0 < S_.numel

variable [Facts]

def fn {F : FTy → Type} [FloatOps F] (main_arg0 : FVec F S2x16x2048x128 .f32) (main_arg1 : FVec F S2x16x2048x128 .f32) (main_arg2 : FVec F S2x16x2048x128 .f32) : IVec S_ 1 :=
  let main_v0 : FVec F S2x16x2048x128 .f32 := Host.absf main_arg0
  let main_cst : FVec F S_ .f32 := constant S_ .f32 0x7F800000#32
  let main_v1 : FVec F S2x16x2048x128 .f32 := broadcastInDim S2x16x2048x128 ![] bcast_S_S2x16x2048x128 main_cst
  let main_v2 : IVec S2x16x2048x128 1 := cmpf .olt main_v0 main_v1
  let main_c : IVec S_ 1 := constantI S_ 1 1#1
  let main_v3 : IVec S_ 1 := (fun x v => Host.reduce IntOp.andi x v reducesTo_S2x16x2048x128_S_d0_1_2_3 h_S_) main_v2 main_c
  let main_v4 : FVec F S2x16x2048x128 .f32 := Host.absf main_arg1
  let main_cst_0 : FVec F S_ .f32 := constant S_ .f32 0x7F800000#32
  let main_v5 : FVec F S2x16x2048x128 .f32 := broadcastInDim S2x16x2048x128 ![] bcast_S_S2x16x2048x128 main_cst_0
  let main_v6 : IVec S2x16x2048x128 1 := cmpf .olt main_v4 main_v5
  let main_c_1 : IVec S_ 1 := constantI S_ 1 1#1
  let main_v7 : IVec S_ 1 := (fun x v => Host.reduce IntOp.andi x v reducesTo_S2x16x2048x128_S_d0_1_2_3 h_S_) main_v6 main_c_1
  let main_v8 : IVec S_ 1 := andi main_v3 main_v7
  let main_v9 : FVec F S2x16x2048x128 .f32 := Host.absf main_arg2
  let main_cst_2 : FVec F S_ .f32 := constant S_ .f32 0x7F800000#32
  let main_v10 : FVec F S2x16x2048x128 .f32 := broadcastInDim S2x16x2048x128 ![] bcast_S_S2x16x2048x128 main_cst_2
  let main_v11 : IVec S2x16x2048x128 1 := cmpf .olt main_v9 main_v10
  let main_c_3 : IVec S_ 1 := constantI S_ 1 1#1
  let main_v12 : IVec S_ 1 := (fun x v => Host.reduce IntOp.andi x v reducesTo_S2x16x2048x128_S_d0_1_2_3 h_S_) main_v11 main_c_3
  let main_v13 : IVec S_ 1 := andi main_v8 main_v12
  main_v13
-- ==== Kernel.lean ====
abbrev S2x16x2048x128 : Shape := ⟨4, ![2, 16, 2048, 128]⟩
abbrev S32x2048x128 : Shape := ⟨3, ![32, 2048, 128]⟩
abbrev S1x1024x128 : Shape := ⟨3, ![1, 1024, 128]⟩
abbrev S1x2048x128 : Shape := ⟨3, ![1, 2048, 128]⟩
abbrev S1x1024x2048 : Shape := ⟨3, ![1, 1024, 2048]⟩
abbrev S1x1024 : Shape := ⟨2, ![1, 1024]⟩
abbrev S1x1024x1 : Shape := ⟨3, ![1, 1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S32x2048x128, .f32⟩
  | .hbm, ⟨4, _⟩ => ⟨S32x2048x128, .f32⟩
  | .hbm, ⟨5, _⟩ => ⟨S32x2048x128, .f32⟩
  | .hbm, ⟨6, _⟩ => ⟨S32x2048x128, .f32⟩
  | .hbm, ⟨7, _⟩ => ⟨S2x16x2048x128, .f32⟩
  | .local _ .vmem, ⟨0, _⟩ => ⟨S1x1024x128, .f32⟩
  | .local _ .vmem, ⟨1, _⟩ => ⟨S1x1024x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x1024x128, .f32⟩
  | .local _ .vmem, ⟨7, _⟩ => ⟨S1x1024x128, .f32⟩
  | _, _ => ⟨S2x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2x16x2048x128_S32x2048x128 : S2x16x2048x128.ShapeCasts S32x2048x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1x1024x128 : S1x1024x128.ShapeCasts S1x1024x128
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S1x2048x128 : S1x2048x128.ShapeCasts S1x2048x128
  reduces_S1x1024x2048_S1x1024 : S1x1024x2048.Reduces [2] S1x1024
  shapeCasts_S1x1024_S1x1024x1 : S1x1024.ShapeCasts S1x1024x1
  broadcasts_S1x1024x1_S1x1024x2048 : S1x1024x1.Broadcasts S1x1024x2048
  broadcasts_S1x1024x1_S1x1024x128 : S1x1024x1.Broadcasts S1x1024x128
  shapeCasts_S32x2048x128_S2x16x2048x128 : S32x2048x128.ShapeCasts S2x16x2048x128
  dot_S1x1024x128_S1x2048x128_S1x1024x2048_2_2_1_1_0_0_wf : DotDims.WF S1x1024x128 S1x2048x128 S1x1024x2048 [2] [2] [1] [1] [0] [0]
  dot_S1x1024x2048_S1x2048x128_S1x1024x128_2_1_1_2_0_0_wf : DotDims.WF S1x1024x2048 S1x2048x128 S1x1024x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S32x2048x128.size a
  hwx0_0 : ∀ i : grid0.Coords, EltTy.bits .f32 = 32 ∨ (Rect.block (s := S32x2048x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S32x2048x128.size a
  hwx0_1 : ∀ i : grid0.Coords, EltTy.bits .f32 = 32 ∨ (Rect.block (s := S32x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S32x2048x128.size a
  hwx0_2 : ∀ i : grid0.Coords, EltTy.bits .f32 = 32 ∨ (Rect.block (s := S32x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S32x2048x128.size a
  hwx0_3 : ∀ i : grid0.Coords, EltTy.bits .f32 = 32 ∨ (Rect.block (s := S32x2048x128) S1x1024x128.size (cc0_transform_3 i) (hinb0_3 i)).WholeWords (EltTy.packing .f32)

variable [Facts₀]

def dot_S1x1024x128_S1x2048x128_S1x1024x2048_2_2_1_1_0_0 : DotDims S1x1024x128 S1x2048x128 S1x1024x2048 where
  lhsContracting := [2]
  rhsContracting := [2]
  lhsNonContracting := [1]
  rhsNonContracting := [1]
  lhsBatch := [0]
  rhsBatch := [0]
  wf := dot_S1x1024x128_S1x2048x128_S1x1024x2048_2_2_1_1_0_0_wf
def dot_S1x1024x2048_S1x2048x128_S1x1024x128_2_1_1_2_0_0 : DotDims S1x1024x2048 S1x2048x128 S1x1024x128 where
  lhsContracting := [2]
  rhsContracting := [1]
  lhsNonContracting := [1]
  rhsNonContracting := [2]
  lhsBatch := [0]
  rhsBatch := [0]
  wf := dot_S1x1024x2048_S1x2048x128_S1x1024x128_2_1_1_2_0_0_wf

abbrev win0_0 : Pipeline.Window sig grid0 :=
  Pipeline.Window.ofSpec (Memref.whole main_v0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x16x2048x128 : Shape := ⟨4, ![2, 16, 2048, 128]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S2x16x2048x2048, .f32⟩
  | .hbm, ⟨4, _⟩ => ⟨S_, .f32⟩
  | .hbm, ⟨5, _⟩ => ⟨S2x16x2048x2048, .f32⟩
  | .hbm, ⟨6, _⟩ => ⟨S2x16x2048x2048, .f32⟩
  | .hbm, ⟨7, _⟩ => ⟨S_, .f32⟩
  | .hbm, ⟨8, _⟩ => ⟨S2x16x2048, .f32⟩
  | .hbm, ⟨9, _⟩ => ⟨S_, .f32⟩
  | .hbm, ⟨10, _⟩ => ⟨S2x16x2048, .f32⟩
  | .hbm, ⟨11, _⟩ => ⟨S2x16x2048, .f32⟩
  | .hbm, ⟨12, _⟩ => ⟨S2x16x2048x1, .f32⟩
  | .hbm, ⟨13, _⟩ => ⟨S2x16x2048x2048, .f32⟩
  | .hbm, ⟨14, _⟩ => ⟨S2x16x2048x2048, .f32⟩
  | .hbm, ⟨15, _⟩ => ⟨S2x16x2048x2048, .f32⟩
  | .hbm, ⟨16, _⟩ => ⟨S_, .f32⟩
  | .hbm, ⟨17, _⟩ => ⟨S2x16x2048, .f32⟩
  | .hbm, ⟨18, _⟩ => ⟨S2x16x2048x1, .f32⟩
  | .hbm, ⟨19, _⟩ => ⟨S2x16x2048x2048, .f32⟩
  | .hbm, ⟨20, _⟩ => ⟨S2x16x2048x2048, .f32⟩
  | .hbm, ⟨21, _⟩ => ⟨S2x16x2048x128, .f32⟩
  | _, _ => ⟨S2x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]

variable [Facts₀]

def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf

class Facts : Prop extends Facts₀ where

variable [Facts]
-- ==== Proof.KernelDots.lean ====
/-
  The kernel's two matrix products, read at an index at the ideal values.

  The first contracts the last axes of a `[1, 1024, 128]` block of queries and a `[1, 2048, 128]` block of keys,
  batched over the leading unit axis: at `(u, q, k)` it is `∑ e, l (u, q, e) · r (u, k, e)`. The second contracts the
  last axis of a `[1, 1024, 2048]` block of weights with the middle axis of a `[1, 2048, 128]` block of values: at
  `(u, q, d)` it is `∑ k, l (u, q, k) · r (u, k, d)`. Both accumulate into zeros, so the accumulator adds nothing.
  The operand indices are read off the dimension numbers axis by axis, and the sum over the contraction shape's
  indices is re-indexed by its one coordinate.
-/
import proofs.«401807_j31035433681706_3_alg».proof.Proof.Gen.KernelIdeal
import Idealize.ShloMosaic.Lib.ValueIdx
import Idealize.ShloMosaic.PureOps.Ideal.Laws

noncomputable section

open scoped BigOperators

namespace Cert.KernelIdeal.Dots

open Cert.KernelIdeal Cert.KernelIdeal.Gen Idealize.ShloMosaic Idealize.ShloMosaic.ValueIdx

/-! ## Queries by keys -/

theorem lhs_qk_0 (i : S1x1024x2048.Idx) (q : dot_S1x1024x128_S1x2048x128_S1x1024x2048_2_2_1_1_0_0.contr.Idx) :
    (dot_S1x1024x128_S1x2048x128_S1x1024x2048_2_2_1_1_0_0.lhsIdx i q 0).val = (i 0).val := by
  unfold DotDims.lhsIdx
  rw [dif_pos (show (0 : Fin S1x1024x128.rank) ∈ dot_S1x1024x128_S1x2048x128_S1x1024x2048_2_2_1_1_0_0.lhsBatch by decide)]
  rfl
theorem lhs_qk_1 (i : S1x1024x2048.Idx) (q : dot_S1x1024x128_S1x2048x128_S1x1024x2048_2_2_1_1_0_0.contr.Idx) :
    (dot_S1x1024x128_S1x2048x128_S1x1024x2048_2_2_1_1_0_0.lhsIdx i q 1).val = (i 1).val := by
  unfold DotDims.lhsIdx
  rw [dif_neg (show ¬(1 : Fin S1x1024x128.rank) ∈ dot_S1x1024x128_S1x2048x128_S1x1024x2048_2_2_1_1_0_0.lhsBatch by decide), dif_pos (show (1 : Fin S1x1024x128.rank) ∈ dot_S1x1024x128_S1x2048x128_S1x1024x2048_2_2_1_1_0_0.lhsNonContracting by decide)]
  rfl
theorem lhs_qk_2 (i : S1x1024x2048.Idx) (q : dot_S1x1024x128_S1x2048x128_S1x1024x2048_2_2_1_1_0_0.contr.Idx) :
    (dot_S1x1024x128_S1x2048x128_S1x1024x2048_2_2_1_1_0_0.lhsIdx i q 2).val = (q ⟨0, by decide⟩).val :=
  dot_S1x1024x128_S1x2048x128_S1x1024x2048_2_2_1_1_0_0.lhsIdx_val_of_single rfl i q
theorem rhs_qk_0 (i : S1x1024x2048.Idx) (q : dot_S1x1024x128_S1x2048x128_S1x1024x2048_2_2_1_1_0_0.contr.Idx) :
    (dot_S1x1024x128_S1x2048x128_S1x1024x2048_2_2_1_1_0_0.rhsIdx i q 0).val = (i 0).val := by
  unfold DotDims.rhsIdx
  rw [dif_pos (show (0 : Fin S1x2048x128.rank) ∈ dot_S1x1024x128_S1x2048x128_S1x1024x2048_2_2_1_1_0_0.rhsBatch by decide)]
  rfl
theorem rhs_qk_1 (i : S1x1024x2048.Idx) (q : dot_S1x1024x128_S1x2048x128_S1x1024x2048_2_2_1_1_0_0.contr.Idx) :
    (dot_S1x1024x128_S1x2048x128_S1x1024x2048_2_2_1_1_0_0.rhsIdx i q 1).val = (i 2).val := by
  unfold DotDims.rhsIdx
  rw [dif_neg (show ¬(1 : Fin S1x2048x128.rank) ∈ dot_S1x1024x128_S1x2048x128_S1x1024x2048_2_2_1_1_0_0.rhsBatch by decide), dif_pos (show (1 : Fin S1x2048x128.rank) ∈ dot_S1x1024x128_S1x2048x128_S1x1024x2048_2_2_1_1_0_0.rhsNonContracting by decide)]
  rfl
theorem rhs_qk_2 (i : S1x1024x2048.Idx) (q : dot_S1x1024x128_S1x2048x128_S1x1024x2048_2_2_1_1_0_0.contr.Idx) :
    (dot_S1x1024x128_S1x2048x128_S1x1024x2048_2_2_1_1_0_0.rhsIdx i q 2).val = (q ⟨0, by decide⟩).val :=
  dot_S1x1024x128_S1x2048x128_S1x1024x2048_2_2_1_1_0_0.rhsIdx_val_of_single rfl i q

/-- The scores: the product of a block of queries with a block of keys, at `(u, q, k)`. -/
theorem qk_apply {φ₁ φ₂ : FTy} (l : FVec Ideal S1x1024x128 φ₁) (r : FVec Ideal S1x2048x128 φ₂) (u : Fin 1) (q : Fin 1024) (k : Fin 2048) :
    matmul dot_S1x1024x128_S1x2048x128_S1x1024x2048_2_2_1_1_0_0 none l r (constant S1x1024x2048 .f32 0x00000000#32) (ix3 u q k)
      = ∑ e : Fin 128, l (ix3 u q e) * r (ix3 u k e) := by
  show FloatOps.matmul dot_S1x1024x128_S1x2048x128_S1x1024x2048_2_2_1_1_0_0 none l r (constant S1x1024x2048 .f32 0x00000000#32) (ix3 u q k) = _
  rw [Ideal.matmul_constant_zero_apply, ← Equiv.sum_comp (contrEquiv1 dot_S1x1024x128_S1x2048x128_S1x1024x2048_2_2_1_1_0_0 128 rfl rfl).symm]
  refine Finset.sum_congr rfl fun e _ => ?_
  have hk := contrEquiv1_symm_val dot_S1x1024x128_S1x2048x128_S1x1024x2048_2_2_1_1_0_0 128 rfl rfl e
  have el : dot_S1x1024x128_S1x2048x128_S1x1024x2048_2_2_1_1_0_0.lhsIdx (ix3 u q k) ((contrEquiv1 dot_S1x1024x128_S1x2048x128_S1x1024x2048_2_2_1_1_0_0 128 rfl rfl).symm e) = ix3 u q e := funext fun a => Fin.ext (by
    match a with
    | ⟨0, _⟩ => exact lhs_qk_0 _ _
    | ⟨1, _⟩ => exact lhs_qk_1 _ _
    | ⟨2, _⟩ => exact (lhs_qk_2 _ _).trans hk)
  have er : dot_S1x1024x128_S1x2048x128_S1x1024x2048_2_2_1_1_0_0.rhsIdx (ix3 u q k) ((contrEquiv1 dot_S1x1024x128_S1x2048x128_S1x1024x2048_2_2_1_1_0_0 128 rfl rfl).symm e) = ix3 u k e := funext fun a => Fin.ext (by
    match a with
    | ⟨0, _⟩ => exact rhs_qk_0 _ _
    | ⟨1, _⟩ => exact rhs_qk_1 _ _
    | ⟨2, _⟩ => exact (rhs_qk_2 _ _).trans hk)
  rw [el, er]

/-! ## Weights by values -/

theorem lhs_pv_0 (i : S1x1024x128.Idx) (q : dot_S1x1024x2048_S1x2048x128_S1x1024x128_2_1_1_2_0_0.contr.Idx) :
    (dot_S1x1024x2048_S1x2048x128_S1x1024x128_2_1_1_2_0_0.lhsIdx i q 0).val = (i 0).val := by
  unfold DotDims.lhsIdx
  rw [dif_pos (show (0 : Fin S1x1024x2048.rank) ∈ dot_S1x1024x2048_S1x2048x128_S1x1024x128_2_1_1_2_0_0.lhsBatch by decide)]
  rfl
theorem lhs_pv_1 (i : S1x1024x128.Idx) (q : dot_S1x1024x2048_S1x2048x128_S1x1024x128_2_1_1_2_0_0.contr.Idx) :
    (dot_S1x1024x2048_S1x2048x128_S1x1024x128_2_1_1_2_0_0.lhsIdx i q 1).val = (i 1).val := by
  unfold DotDims.lhsIdx
  rw [dif_neg (show ¬(1 : Fin S1x1024x2048.rank) ∈ dot_S1x1024x2048_S1x2048x128_S1x1024x128_2_1_1_2_0_0.lhsBatch by decide), dif_pos (show (1 : Fin S1x1024x2048.rank) ∈ dot_S1x1024x2048_S1x2048x128_S1x1024x128_2_1_1_2_0_0.lhsNonContracting by decide)]
  rfl
theorem lhs_pv_2 (i : S1x1024x128.Idx) (q : dot_S1x1024x2048_S1x2048x128_S1x1024x128_2_1_1_2_0_0.contr.Idx) :
    (dot_S1x1024x2048_S1x2048x128_S1x1024x128_2_1_1_2_0_0.lhsIdx i q 2).val = (q ⟨0, by decide⟩).val :=
  dot_S1x1024x2048_S1x2048x128_S1x1024x128_2_1_1_2_0_0.lhsIdx_val_of_single rfl i q
theorem rhs_pv_0 (i : S1x1024x128.Idx) (q : dot_S1x1024x2048_S1x2048x128_S1x1024x128_2_1_1_2_0_0.contr.Idx) :
    (dot_S1x1024x2048_S1x2048x128_S1x1024x128_2_1_1_2_0_0.rhsIdx i q 0).val = (i 0).val := by
  unfold DotDims.rhsIdx
  rw [dif_pos (show (0 : Fin S1x2048x128.rank) ∈ dot_S1x1024x2048_S1x2048x128_S1x1024x128_2_1_1_2_0_0.rhsBatch by decide)]
  rfl
theorem rhs_pv_1 (i : S1x1024x128.Idx) (q : dot_S1x1024x2048_S1x2048x128_S1x1024x128_2_1_1_2_0_0.contr.Idx) :
    (dot_S1x1024x2048_S1x2048x128_S1x1024x128_2_1_1_2_0_0.rhsIdx i q 1).val = (q ⟨0, by decide⟩).val :=
  dot_S1x1024x2048_S1x2048x128_S1x1024x128_2_1_1_2_0_0.rhsIdx_val_of_single rfl i q
theorem rhs_pv_2 (i : S1x1024x128.Idx) (q : dot_S1x1024x2048_S1x2048x128_S1x1024x128_2_1_1_2_0_0.contr.Idx) :
    (dot_S1x1024x2048_S1x2048x128_S1x1024x128_2_1_1_2_0_0.rhsIdx i q 2).val = (i 2).val := by
  unfold DotDims.rhsIdx
  rw [dif_neg (show ¬(2 : Fin S1x2048x128.rank) ∈ dot_S1x1024x2048_S1x2048x128_S1x1024x128_2_1_1_2_0_0.rhsBatch by decide), dif_pos (show (2 : Fin S1x2048x128.rank) ∈ dot_S1x1024x2048_S1x2048x128_S1x1024x128_2_1_1_2_0_0.rhsNonContracting by decide)]
  rfl

/-- The weighted values: the product of a block of weights with a block of values, at `(u, q, d)`. -/
theorem pv_apply {φ₁ φ₂ : FTy} (l : FVec Ideal S1x1024x2048 φ₁) (r : FVec Ideal S1x2048x128 φ₂) (u : Fin 1) (q : Fin 1024) (d : Fin 128) :
    matmul dot_S1x1024x2048_S1x2048x128_S1x1024x128_2_1_1_2_0_0 none l r (constant S1x1024x128 .f32 0x00000000#32) (ix3 u q d)
      = ∑ k : Fin 2048, l (ix3 u q k) * r (ix3 u k d) := by
  show FloatOps.matmul dot_S1x1024x2048_S1x2048x128_S1x1024x128_2_1_1_2_0_0 none l r (constant S1x1024x128 .f32 0x00000000#32) (ix3 u q d) = _
  rw [Ideal.matmul_constant_zero_apply, ← Equiv.sum_comp (contrEquiv1 dot_S1x1024x2048_S1x2048x128_S1x1024x128_2_1_1_2_0_0 2048 rfl rfl).symm]
  refine Finset.sum_congr rfl fun k _ => ?_
  have hk := contrEquiv1_symm_val dot_S1x1024x2048_S1x2048x128_S1x1024x128_2_1_1_2_0_0 2048 rfl rfl k
  have el : dot_S1x1024x2048_S1x2048x128_S1x1024x128_2_1_1_2_0_0.lhsIdx (ix3 u q d) ((contrEquiv1 dot_S1x1024x2048_S1x2048x128_S1x1024x128_2_1_1_2_0_0 2048 rfl rfl).symm k) = ix3 u q k := funext fun a => Fin.ext (by
    match a with
    | ⟨0, _⟩ => exact lhs_pv_0 _ _
    | ⟨1, _⟩ => exact lhs_pv_1 _ _
    | ⟨2, _⟩ => exact (lhs_pv_2 _ _).trans hk)
  have er : dot_S1x1024x2048_S1x2048x128_S1x1024x128_2_1_1_2_0_0.rhsIdx (ix3 u q d) ((contrEquiv1 dot_S1x1024x2048_S1x2048x128_S1x1024x128_2_1_1_2_0_0 2048 rfl rfl).symm k) = ix3 u k d := funext fun a => Fin.ext (by
    match a with
    | ⟨0, _⟩ => exact rhs_pv_0 _ _
    | ⟨1, _⟩ => exact (rhs_pv_1 _ _).trans hk
    | ⟨2, _⟩ => exact rhs_pv_2 _ _)
  rw [el, er]

end Cert.KernelIdeal.Dots

end
-- ==== Proof.LibRow3.lean ====
/-
  Rows of a `[1, a, b]` array, read at an index at the ideal values: the reductions of such an array along its last
  axis, and a `[1, a]` vector of per-row numbers laid back along that axis.

  * a maximum-reduction along the last axis is, at row `r`, the fold of `max` from the accumulator's value over the
    `b` entries of the row; an add-reduction is the sum of the row's entries;
  * a `[1, a]` vector cast to `[1, a, 1]` reads, at `(u, r, z)`, the vector at `(u, r)`: the row-major positions agree;
  * a `[1, a, 1]` column broadcast to `[1, a, n]` reads, at `(u, r, k)`, the column at `(0, r, 0)`: the unit axes are
    pinned at `0` and the long axis is carried over.
-/
import Idealize.ShloMosaic.PureOps.Reduce
import Idealize.ShloMosaic.PureOps.Ideal.Laws
import Idealize.ShloMosaic.Lib.ValueIdx
import Idealize.ShloMosaic.Lib.Pipeline.Value

noncomputable section

open scoped BigOperators

namespace Cert.LibRow3

open Idealize.ShloMosaic Idealize.ShloMosaic.ValueIdx

variable {a b : Nat}

/-- The reduced index `(u, r)` with the coordinate `k` put back on the last axis is `(u, r, k)`. -/
theorem lift_last (h : (⟨3, ![1, a, b]⟩ : Shape).Reduces [2] ⟨2, ![1, a]⟩) (u : Fin 1) (r : Fin a)
    (k : Fin ((⟨3, ![1, a, b]⟩ : Shape).size 2)) : h.lift (ix2 u r) k = ix3 u r (⟨k.val, k.isLt⟩ : Fin b) := by
  funext c; apply Fin.ext
  fin_cases c <;> rfl

/-- A maximum-reduction along the last axis, at row `r`: the fold of `max` from the accumulator's value over the row. -/
theorem rowMax_apply {φ : FTy} (src : FVec Ideal ⟨3, ![1, a, b]⟩ φ) (acc : BitVec φ.bits)
    (h : (⟨3, ![1, a, b]⟩ : Shape).Reduces [2] ⟨2, ![1, a]⟩) (hφ : FKind.Formats φ) (hacc : acc = FKind.maximumf.neutral φ hφ)
    (u : Fin 1) (r : Fin a) :
    multiReduction .maximumf [2] ⟨2, ![1, a]⟩ src acc h hφ hacc (ix2 u r)
      = (Finset.univ : Finset (Fin b)).fold max (Ideal.ofBits φ acc) (fun k => src (ix3 u r k)) := by
  rw [Ideal.multiReduction_maximumf_single]
  have hf : (src ∘ h.lift (ix2 u r)) = fun k : Fin b => src (ix3 u r k) := funext fun k => congrArg src (lift_last h u r k)
  exact congrArg (fun f => Finset.fold max (Ideal.ofBits φ acc) f (Finset.univ : Finset (Fin b))) hf

/-- An add-reduction along the last axis, at row `r`: the sum of the row. -/
theorem rowSum_apply {φ : FTy} (src : FVec Ideal ⟨3, ![1, a, b]⟩ φ) (acc : BitVec φ.bits)
    (h : (⟨3, ![1, a, b]⟩ : Shape).Reduces [2] ⟨2, ![1, a]⟩) (hφ : FKind.Formats φ) (hacc : acc = FKind.add.neutral φ hφ)
    (u : Fin 1) (r : Fin a) :
    multiReduction .add [2] ⟨2, ![1, a]⟩ src acc h hφ hacc (ix2 u r) = ∑ k : Fin b, src (ix3 u r k) := by
  rw [Ideal.multiReduction_add_single]
  exact Finset.sum_congr rfl fun k _ => congrArg src (lift_last h u r k)

variable {α : Type}

/-- A `[1, a]` vector cast to `[1, a, 1]` reads, at `(u, r, z)`, the vector at `(u, r)`. -/
theorem colCast_apply (x : (⟨2, ![1, a]⟩ : Shape).Idx → α) (h : (⟨2, ![1, a]⟩ : Shape).ShapeCasts ⟨3, ![1, a, 1]⟩)
    (u : Fin 1) (r : Fin a) (z : Fin 1) : shapeCast ⟨3, ![1, a, 1]⟩ x h (ix3 u r z) = x (ix2 u r) :=
  shapeCast_apply x h _ _ (by
    have hz : z.val = 0 := by omega
    rw [Shape.rowMajor_val_two, Shape.rowMajor_val_three]
    show u.val * a + r.val = (u.val * a + r.val) * 1 + z.val
    rw [hz, Nat.mul_one, Nat.add_zero])

/-- A `[1, a, 1]` column broadcast to `[1, a, n]` reads, at `(u, r, k)`, the column at `(0, r, 0)`. -/
theorem colBroadcast_apply {n : Nat} (v : (⟨3, ![1, a, 1]⟩ : Shape).Idx → α)
    (h : (⟨3, ![1, a, 1]⟩ : Shape).Broadcasts ⟨3, ![1, a, n]⟩) (u : Fin 1) (r : Fin a) (k : Fin n) :
    broadcastTo ⟨3, ![1, a, n]⟩ v h (ix3 u r k) = v (ix3 (0 : Fin 1) r (0 : Fin 1)) := by
  refine broadcastTo_apply v h (ix3 u r k) (ix3 (0 : Fin 1) r (0 : Fin 1)) fun ax => ?_
  match ax with
  | ⟨0, _⟩ =>
    show (0 : ℕ) = if (1 : ℕ) = 1 then 0 else u.val
    rw [if_pos rfl]
  | ⟨1, _⟩ =>
    show r.val = if a = 1 then 0 else r.val
    split
    · have := r.isLt; omega
    · rfl
  | ⟨2, _⟩ =>
    show (0 : ℕ) = if (1 : ℕ) = 1 then 0 else k.val
    rw [if_pos rfl]

end Cert.LibRow3

end
-- ==== Proof.Softmax.lean ====
/-
  Attention over one query row, on the extended reals.

  For a row of scores `s k` (k over a finite nonempty set) and a column of values `v k`, the two programs compute
    kernel:     (∑ k, exp (s k − M) · v k) · (1 / ∑ k, exp (s k − M))
    reference:  ∑ k, (exp (s k − M') / (0 + ∑ j, exp (s j − M'))) · v k
  with M the running maximum of the scores started from −∞ and M' = max (−∞) M. When every score and value is a real
  number, M is one of the scores, so it is real; every exponential is a positive real, the denominator L is a positive
  real, division by L is multiplication by 1/L, and both sides are the real number (∑ k, e_k · v_k) / L.

  The scores themselves are, in the kernel, ∑ e, (q e · c) · κ e (the scale folded into the query) and, in the reference,
  (∑ e, q e · κ e) · c: equal for real q, κ, c by distributivity.
-/
import Idealize.ShloMosaic.PureOps.Ideal
import Idealize.ShloMosaic.PureOps.Ideal.Laws

noncomputable section

open scoped BigOperators

namespace Cert.Attn

open Idealize.ShloMosaic

/-! ## The words the programs spell -/

/-- The f32 word of −∞ denotes the bottom of the extended reals. -/
theorem ofBits_negInf : Ideal.ofBits .f32 0xFF800000#32 = (⊥ : EReal) := by
  simp [Ideal.ofBits, Ideal.ieee]

/-- The f32 word of 1.0 denotes 1. -/
theorem ofBits_one : Ideal.ofBits .f32 0x3F800000#32 = (1 : EReal) := by
  simp [Ideal.ofBits, Ideal.ieee, -EReal.coe_mul]; norm_num

/-- The softmax scale's word (the f32 nearest 128^(−1/2)) denotes a real number. -/
theorem ofBits_scale_real : ∃ c : ℝ, Ideal.ofBits .f32 0x3DB504F3#32 = (c : EReal) := by
  refine ⟨(1 : ℝ) * ((2 ^ 23 + 3474675 : ℕ) : ℝ) * (2 : ℝ) ^ ((123 : ℤ) - (2 ^ (8 - 1) - 1 : ℤ) - (23 : ℕ)), ?_⟩
  simp [Ideal.ofBits, Ideal.ieee, -EReal.coe_mul]

/-! ## Sums and maxima of real families inside the extended reals -/

/-- The embedding of the reals commutes with finite sums. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The running maximum from −∞ over a nonempty finite set is attained. -/
theorem fold_max_mem {κ : Type} (f : κ → EReal) (S : Finset κ) (hS : S.Nonempty) :
    ∃ k ∈ S, S.fold max (⊥ : EReal) f = f k := by
  classical
  induction S using Finset.induction_on with
  | empty => exact absurd hS Finset.not_nonempty_empty
  | insert a S ha ih =>
    rw [Finset.fold_insert ha]
    rcases S.eq_empty_or_nonempty with rfl | hne
    · exact ⟨a, Finset.mem_insert_self _ _, by simp⟩
    · obtain ⟨k, hk, e⟩ := ih hne
      rw [e]
      rcases max_choice (f a) (f k) with h | h
      · exact ⟨a, Finset.mem_insert_self _ _, h⟩
      · exact ⟨k, Finset.mem_insert_of_mem hk, h⟩

/-! ## One row -/

variable {κ δ : Type} [Fintype κ] [Fintype δ]

/-- The running maximum of a row of scores, started from `ninf`. -/
def rowTop (ninf : EReal) (s : κ → EReal) : EReal := Finset.univ.fold max ninf s

/-- The kernel's row: the unnormalised weighted sum times the reciprocal of the normaliser. -/
def kerRow (ninf one : EReal) (s v : κ → EReal) : EReal :=
  (∑ k, Ideal.exp (s k - rowTop ninf s) * v k) * Ideal.div one (∑ k, Ideal.exp (s k - rowTop ninf s))

/-- The reference's row: the sum of the normalised weights times the values. -/
def refRow (ninf zero : EReal) (s v : κ → EReal) : EReal :=
  ∑ k, Ideal.div (Ideal.exp (s k - max ninf (rowTop ninf s))) (zero + ∑ j, Ideal.exp (s j - max ninf (rowTop ninf s))) * v k

/-- On real scores and values the two rows are the same real number. -/
theorem kerRow_eq_refRow [Nonempty κ] (s v : κ → ℝ) :
    kerRow ⊥ 1 (fun k => (s k : EReal)) (fun k => (v k : EReal))
      = refRow ⊥ 0 (fun k => (s k : EReal)) (fun k => (v k : EReal)) := by
  obtain ⟨k0, -, hM⟩ := fold_max_mem (fun k => (s k : EReal)) Finset.univ Finset.univ_nonempty
  have hM' : rowTop ⊥ (fun k => (s k : EReal)) = ((s k0 : ℝ) : EReal) := hM
  unfold kerRow refRow
  rw [hM', max_eq_right bot_le, zero_add]
  simp only [← EReal.coe_sub, Ideal.exp_coe]
  have hL : (0 : ℝ) < ∑ j, Real.exp (s j - s k0) := Finset.sum_pos (fun j _ => Real.exp_pos _) Finset.univ_nonempty
  rw [← coe_sum, Ideal.div_coe hL.ne']
  simp only [Ideal.div_coe hL.ne', ← EReal.coe_mul, one_mul, ← coe_sum]
  refine congrArg _ ?_
  rw [Finset.sum_mul]
  exact Finset.sum_congr rfl fun k _ => by ring

/-- The scale folded into the query, or applied to the product: the same real. -/
theorem score_eq (q kk : δ → ℝ) (c : ℝ) :
    ∑ e, ((q e : EReal) * (c : EReal)) * (kk e : EReal) = (∑ e, (q e : EReal) * (kk e : EReal)) * (c : EReal) := by
  simp only [← EReal.coe_mul, ← coe_sum]
  refine congrArg _ ?_
  rw [Finset.sum_mul]
  exact Finset.sum_congr rfl fun e _ => by ring

/-- One output element: the kernel's row over scaled-query scores is the reference's row over scaled scores, for
    real queries, keys, values and scale. -/
theorem attn_row [Nonempty κ] (q : δ → ℝ) (K : κ → δ → ℝ) (v : κ → ℝ) (c : ℝ) :
    kerRow ⊥ 1 (fun k => ∑ e, ((q e : EReal) * (c : EReal)) * (K k e : EReal)) (fun k => (v k : EReal))
      = refRow ⊥ 0 (fun k => (∑ e, (q e : EReal) * (K k e : EReal)) * (c : EReal)) (fun k => (v k : EReal)) := by
  have hs : (fun k => ∑ e, ((q e : EReal) * (c : EReal)) * (K k e : EReal))
      = fun k => (((∑ e, q e * K k e) * c : ℝ) : EReal) := funext fun k => by
    rw [score_eq]; simp only [← EReal.coe_mul, ← coe_sum]
  have hr : (fun k => (∑ e, (q e : EReal) * (K k e : EReal)) * (c : EReal))
      = fun k => (((∑ e, q e * K k e) * c : ℝ) : EReal) := funext fun k => by
    simp only [← EReal.coe_mul, ← coe_sum]
  rw [hs, hr]
  exact kerRow_eq_refRow _ _

end Cert.Attn

end
-- ==== Proof.KernelPayload.lean ====
/-
  What the kernel body stores, read at one element, at the ideal values.

  From a block of queries `x0` (1024 rows), the keys `x1` and the values `x2` (2048 rows each) the body computes, in
  order: the scores `sc` (scaled queries times keys), the weights `wt = exp (sc − row maximum)`, the normaliser
  `nrm` (the row sums of the weights), the weighted values `pv = wt · x2`, and stores `pv · (1 / nrm)`. Rounding to
  bf16 before each product is the identity at the ideal values. Read at `(0, q, d)` the stored element is the
  kernel's attention row (`Attn.kerRow`) over the scores of query row `q` and column `d` of the values.
-/
import proofs.«401807_j31035433681706_3_alg».proof.Proof.Gen.KernelIdeal.Skeleton
import proofs.«401807_j31035433681706_3_alg».proof.Proof.KernelDots
import proofs.«401807_j31035433681706_3_alg».proof.Proof.LibRow3
import proofs.«401807_j31035433681706_3_alg».proof.Proof.Softmax

noncomputable section

open scoped BigOperators

namespace Cert.KernelIdeal.Payload

open Cert.KernelIdeal Cert.KernelIdeal.Gen Idealize.ShloMosaic Idealize.ShloMosaic.ValueIdx

variable (x0 : FVec Ideal S1x1024x128 .f32) (x1 x2 : FVec Ideal S1x2048x128 .f32)

/-- The scores: the queries, each multiplied by the scale, times the keys. -/
def sc : FVec Ideal S1x1024x2048 .f32 :=
  matmul dot_S1x1024x128_S1x2048x128_S1x1024x2048_2_2_1_1_0_0 none
    (truncf .bf16 (mulf (shapeCast S1x1024x128 x0 shapeCasts_S1x1024x128_S1x1024x128) (broadcast S1x1024x128 (Scalar.ofBits .f32 0x3DB504F3#32))) bitsLt_bf16_f32)
    (truncf .bf16 (shapeCast S1x2048x128 x1 shapeCasts_S1x2048x128_S1x2048x128) bitsLt_bf16_f32)
    (constant S1x1024x2048 .f32 0x00000000#32)

/-- Score `(q, k)`: the sum over the feature axis of the scaled query entry times the key entry. -/
theorem sc_apply (q : Fin 1024) (k : Fin 2048) :
    sc x0 x1 (ix3 0 q k) = ∑ e : Fin 128, (x0 (ix3 0 q e) * Ideal.ofBits .f32 0x3DB504F3#32) * x1 (ix3 0 k e) := by
  unfold sc
  rw [Dots.qk_apply]
  refine Finset.sum_congr rfl fun e _ => ?_
  rw [shapeCast_self, shapeCast_self]
  rfl

/-- The unnormalised weights: the exponential of each score less its row's maximum. -/
def wt : FVec Ideal S1x1024x2048 .f32 :=
  exp (subf (sc x0 x1) (broadcastTo S1x1024x2048 (shapeCast S1x1024x1 (multiReduction .maximumf [2] S1x1024 (sc x0 x1) 0xFF800000#32 reduces_S1x1024x2048_S1x1024 (.inl rfl) rfl) shapeCasts_S1x1024_S1x1024x1) broadcasts_S1x1024x1_S1x1024x2048))

theorem wt_apply (q : Fin 1024) (k : Fin 2048) :
    wt x0 x1 (ix3 0 q k)
      = Ideal.exp (sc x0 x1 (ix3 0 q k) - Finset.univ.fold max (Ideal.ofBits .f32 0xFF800000#32) (fun k' : Fin 2048 => sc x0 x1 (ix3 0 q k'))) := by
  unfold wt
  show Ideal.exp (sc x0 x1 (ix3 0 q k) - broadcastTo S1x1024x2048 _ broadcasts_S1x1024x1_S1x1024x2048 (ix3 0 q k)) = _
  rw [LibRow3.colBroadcast_apply, LibRow3.colCast_apply]
  exact congrArg (fun z => Ideal.exp (sc x0 x1 (ix3 0 q k) - z))
    (LibRow3.rowMax_apply (a := 1024) (b := 2048) (sc x0 x1) _ reduces_S1x1024x2048_S1x1024 _ _ 0 q)

/-- The normaliser: the row sums of the weights, as a column. -/
def nrm : FVec Ideal S1x1024x1 .f32 :=
  shapeCast S1x1024x1 (multiReduction .add [2] S1x1024 (wt x0 x1) 0x00000000#32 reduces_S1x1024x2048_S1x1024 (.inl rfl) rfl) shapeCasts_S1x1024_S1x1024x1

theorem nrm_apply (q : Fin 1024) (z : Fin 1) : nrm x0 x1 (ix3 0 q z) = ∑ k : Fin 2048, wt x0 x1 (ix3 0 q k) := by
  unfold nrm
  rw [LibRow3.colCast_apply]
  exact LibRow3.rowSum_apply (a := 1024) (b := 2048) (wt x0 x1) _ reduces_S1x1024x2048_S1x1024 _ _ 0 q

/-- The weighted values: the weights times the values. -/
def pv : FVec Ideal S1x1024x128 .f32 :=
  matmul dot_S1x1024x2048_S1x2048x128_S1x1024x128_2_1_1_2_0_0 none
    (truncf .bf16 (wt x0 x1) bitsLt_bf16_f32)
    (truncf .bf16 (shapeCast S1x2048x128 x2 shapeCasts_S1x2048x128_S1x2048x128) bitsLt_bf16_f32)
    (constant S1x1024x128 .f32 0x00000000#32)

theorem pv_apply (q : Fin 1024) (d : Fin 128) :
    pv x0 x1 x2 (ix3 0 q d) = ∑ k : Fin 2048, wt x0 x1 (ix3 0 q k) * x2 (ix3 0 k d) := by
  unfold pv
  rw [Dots.pv_apply]
  refine Finset.sum_congr rfl fun k _ => ?_
  rw [shapeCast_self]
  rfl

/-- The stored vector is the weighted values times the reciprocal of the normaliser, laid along the feature axis. -/
theorem pay_eq :
    k0_pay1 (F := Ideal) x0 x1 x2
      = mulf (pv x0 x1 x2) (broadcastTo S1x1024x128 (divf (broadcast S1x1024x1 (Scalar.ofBits .f32 0x3F800000#32)) (nrm x0 x1)) broadcasts_S1x1024x1_S1x1024x128) := rfl

/-- The stored element `(u, q, d)` is the kernel's attention row over query row `q`'s scores and column `d` of the values. -/
theorem pay_apply (u : Fin 1) (q : Fin 1024) (d : Fin 128) :
    k0_pay1 (F := Ideal) x0 x1 x2 (ix3 u q d)
      = Attn.kerRow (Ideal.ofBits .f32 0xFF800000#32) (Ideal.ofBits .f32 0x3F800000#32)
          (fun k : Fin 2048 => ∑ e : Fin 128, (x0 (ix3 0 q e) * Ideal.ofBits .f32 0x3DB504F3#32) * x1 (ix3 0 k e))
          (fun k : Fin 2048 => x2 (ix3 0 k d)) := by
  obtain rfl : u = 0 := Subsingleton.elim _ _
  rw [pay_eq]
  show pv x0 x1 x2 (ix3 0 q d) * broadcastTo S1x1024x128 _ broadcasts_S1x1024x1_S1x1024x128 (ix3 0 q d) = _
  rw [LibRow3.colBroadcast_apply]
  show pv x0 x1 x2 (ix3 0 q d) * Ideal.div (Ideal.ofBits .f32 0x3F800000#32) (nrm x0 x1 (ix3 0 q 0)) = _
  rw [pv_apply, nrm_apply]
  unfold Attn.kerRow Attn.rowTop
  simp only [wt_apply, sc_apply]

end Cert.KernelIdeal.Payload

end
-- ==== Proof.KernelArray.lean ====
/-
  The kernel's output array after the run, as one function of the arrays the region reads.

  The region works on the arrays flattened to `[32, 2048, 128]` (batch and head merged). Grid point `t = (p, j)` reads
  rows `1024·j … 1024·j + 1023` of slice `p` of the queries and all of slice `p` of the keys and values, and writes
  back the same rows of slice `p` of the output. What it writes at row `q`, column `d` is the kernel's attention row
  over that query row's scores against slice `p`'s keys and column `d` of slice `p`'s values: block `t` of ONE
  whole-array function `G3`. The 64 blocks tile the output, so the array ends holding `G3`.
-/
import proofs.«401807_j31035433681706_3_alg».proof.Proof.Gen.KernelIdeal.Frame
import proofs.«401807_j31035433681706_3_alg».proof.Proof.KernelPayload
import Idealize.ShloMosaic.Lib.Pipeline.Value

set_option maxRecDepth 16384

noncomputable section

open scoped BigOperators

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Element `(p, q, d)` of the flattened output: the kernel's attention row of query row `(p, q)` against slice `p`. -/
def g3 (A0 A1 A2 : FVec Ideal S32x2048x128 .f32) (p : Fin 32) (q : Fin 2048) (d : Fin 128) : EReal :=
  Attn.kerRow (Ideal.ofBits .f32 0xFF800000#32) (Ideal.ofBits .f32 0x3F800000#32)
    (fun k : Fin 2048 => ∑ e : Fin 128, (A0 (ix3 p q e) * Ideal.ofBits .f32 0x3DB504F3#32) * A1 (ix3 p k e))
    (fun k : Fin 2048 => A2 (ix3 p k d))

/-- The flattened output as one function of the flattened queries, keys and values. -/
def G3 (A0 A1 A2 : FVec Ideal S32x2048x128 .f32) : FVec Ideal S32x2048x128 .f32 := fun i => g3 A0 A1 A2 (i 0) (i 1) (i 2)

theorem zero3 : (![0, 0, 0] : Fin 3 → Nat) = fun _ => 0 := funext fun a => by fin_cases a <;> rfl

/-- The printed index maps over the 64 grid points: the query window moves with the output window, the key and value
    windows follow its slice and stay at the top of it, and the output's block indices stay in range. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (2 : Fin 3) = 0 ∧ win0_3.index t (0 : Fin 3) ≤ 31 ∧ win0_3.index t (1 : Fin 3) ≤ 1 :=
  (by decide +kernel : ∀ t : Fin grid0.N, _)

/-- Every block of the output is some point's. -/
theorem idx_onto : ∀ (q0 : Fin 32) (q1 : Fin 2), ∃ t : Fin cfg0.N, win0_3.index t = ![q0.val, q1.val, 0] :=
  (by decide +kernel : ∀ (q0 : Fin 32) (q1 : Fin 2), ∃ t : Fin grid0.N, win0_3.index t = ![q0.val, q1.val, 0])

/-- The three input blocks at a point, at their literal types. -/
abbrev qblk (c : Dev nD) (t : Fin cfg0.N) : FVec Ideal S1x1024x128 .f32 := iblk m c 0 t
abbrev kblk (c : Dev nD) (t : Fin cfg0.N) : FVec Ideal S1x2048x128 .f32 := iblk m c 1 t
abbrev vblk (c : Dev nD) (t : Fin cfg0.N) : FVec Ideal S1x2048x128 .f32 := iblk m c 2 t

/-- What point `t` writes back is block `t` of `G3` of the arrays as the region finds them. -/
theorem flushed3_eq (c : Dev nD) (t : Fin cfg0.N) :
    (dats m 0 c).flushed 3 t
      = ((cfg0.win 3).blk t).view.read (Elt Ideal) (G3 (V m c main_v0) (V m c main_v1) (V m c main_v2)) := by
  show (cfg0.win 3).cut (grid0.coords t) ((dats m 0 c).after 3 t) = _
  rw [after0_3]
  unfold out0_3
  rw [View.canon_unit_zero zero3]
  simp only [View.ld_unit_zero (S := S1x1024x128) zero3, View.ld_unit_zero (S := S1x2048x128) zero3]
  obtain ⟨e00, e01, e02, e10, e11, e12, e20, e21, e22, e32, b0, b1⟩ := idx_facts t
  funext j
  obtain ⟨u, q, d, rfl⟩ : ∃ (u : Fin 1) (q : Fin 1024) (d : Fin 128), j = ix3 u q d := ⟨j 0, j 1, j 2, eq_ix3 j⟩
  have hu : u.val = 0 := by omega
  have hz : ((0 : Fin 1) : ℕ) = 0 := rfl
  have hq := q.isLt
  obtain ⟨P, Q, hemb, hP, hQ⟩ : ∃ (P : Fin 32) (Q : Fin 2048), ((cfg0.win 3).blk t).view.emb (ix3 u q d) = ix3 P Q d
      ∧ P.val = win0_3.index t (0 : Fin 3) ∧ Q.val = win0_3.index t (1 : Fin 3) * 1024 + q.val :=
    ⟨⟨win0_3.index t (0 : Fin 3), by omega⟩, ⟨win0_3.index t (1 : Fin 3) * 1024 + q.val, by omega⟩, funext fun a => Fin.ext (by
      match a with
      | ⟨0, _⟩ => show win0_3.index t (0 : Fin 3) * 1 + 1 * u.val = win0_3.index t (0 : Fin 3); omega
      | ⟨1, _⟩ => show win0_3.index t (1 : Fin 3) * 1024 + 1 * q.val = win0_3.index t (1 : Fin 3) * 1024 + q.val; omega
      | ⟨2, _⟩ => show win0_3.index t (2 : Fin 3) * 128 + 1 * d.val = d.val; omega), rfl, rfl⟩
  show k0_pay1 (F := Ideal) (qblk m c t) (kblk m c t) (vblk m c t) (ix3 u q d) = G3 (V m c main_v0) (V m c main_v1) (V m c main_v2) (((cfg0.win 3).blk t).view.emb (ix3 u q d))
  rw [hemb]
  refine (Payload.pay_apply (qblk m c t) (kblk m c t) (vblk m c t) u q d).trans ?_
  show _ = g3 (V m c main_v0) (V m c main_v1) (V m c main_v2) P Q d
  unfold g3
  have rq : ∀ e : Fin 128, qblk m c t (ix3 0 q e) = V m c main_v0 (ix3 P Q e) := fun e => by
    show V m c main_v0 (((cfg0.win 0).blk t).view.emb (ix3 0 q e)) = _
    refine congrArg _ (funext fun a => Fin.ext ?_)
    match a with
    | ⟨0, _⟩ => show win0_0.index t (0 : Fin 3) * 1 + 1 * ((0 : Fin 1) : ℕ) = P.val; omega
    | ⟨1, _⟩ => show win0_0.index t (1 : Fin 3) * 1024 + 1 * q.val = Q.val; omega
    | ⟨2, _⟩ => show win0_0.index t (2 : Fin 3) * 128 + 1 * e.val = e.val; omega
  have rk : ∀ (k : Fin 2048) (e : Fin 128), kblk m c t (ix3 0 k e) = V m c main_v1 (ix3 P k e) := fun k e => by
    show V m c main_v1 (((cfg0.win 1).blk t).view.emb (ix3 0 k e)) = _
    refine congrArg _ (funext fun a => Fin.ext ?_)
    match a with
    | ⟨0, _⟩ => show win0_1.index t (0 : Fin 3) * 1 + 1 * ((0 : Fin 1) : ℕ) = P.val; omega
    | ⟨1, _⟩ => show win0_1.index t (1 : Fin 3) * 2048 + 1 * k.val = k.val; omega
    | ⟨2, _⟩ => show win0_1.index t (2 : Fin 3) * 128 + 1 * e.val = e.val; omega
  have rv : ∀ (k : Fin 2048), vblk m c t (ix3 0 k d) = V m c main_v2 (ix3 P k d) := fun k => by
    show V m c main_v2 (((cfg0.win 2).blk t).view.emb (ix3 0 k d)) = _
    refine congrArg _ (funext fun a => Fin.ext ?_)
    match a with
    | ⟨0, _⟩ => show win0_2.index t (0 : Fin 3) * 1 + 1 * ((0 : Fin 1) : ℕ) = P.val; omega
    | ⟨1, _⟩ => show win0_2.index t (1 : Fin 3) * 2048 + 1 * k.val = k.val; omega
    | ⟨2, _⟩ => show win0_2.index t (2 : Fin 3) * 128 + 1 * d.val = d.val; omega
  refine congrArg₂ (Attn.kerRow _ _) (funext fun k => Finset.sum_congr rfl fun e _ => ?_) (funext fun k => rv k)
  rw [rq e, rk k e]

/-- An index of the output is in point `t`'s block iff each coordinate is in the block's range on its axis. -/
theorem mem_blk3 (t : Fin cfg0.N) (i : S32x2048x128.Idx) :
    i ∈ ((cfg0.win 3).blk t).view.set ↔ ∀ a : Fin 3, win0_3.index t a * S1x1024x128.size a ≤ (i a).val ∧ (i a).val < win0_3.index t a * S1x1024x128.size a + S1x1024x128.size a := by
  show i ∈ ((View.whole main_v3).slice (win0_3.rect t)).set ↔ _
  rw [View.set_slice_whole, Rect.mem_set_unit]
  exact Iff.rfl

/-- The blocks tile the output: index `(p, r, d)` is in the block of the point with block indices `(p, r / 1024)`. -/
theorem cover3 (i : S32x2048x128.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 128 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 128 ≤ (i 2).val ∧ (i 2).val < win0_3.index t (2 : Fin 3) * 128 + 128; omega

/-- The output array after the run is `G3` of the arrays as the region finds them. -/
theorem final3 (c : Dev nD) :
    (dats m 0 c).arrAt 3 cfg0.N = G3 (V m c main_v0) (V m c main_v1) (V m c main_v2) :=
  (dats m 0 c).arrAt_eq_of_cover 3 _ (fun t _ => flushed3_eq m c t) cover3

end Cert.KernelIdeal.KValue

end
-- ==== Proof.KernelRun.lean ====
/-
  The kernel program's run, with its result named.

  Before the region the host flattens each input from `[2, 16, 2048, 128]` to `[32, 2048, 128]` (batch and head
  merged, row-major); after it, it unflattens the region's output. So the program's result is the unflattening of `G3`
  of the flattened inputs, and read at `(b, h, q, d)` that is the kernel's attention row of query row `(b, h, q)`
  against the keys and values of batch `b`, head `h`: flattened slice `16·b + h` is exactly that batch and head.
-/
import proofs.«401807_j31035433681706_3_alg».proof.Proof.KernelArray
import Idealize.ShloMosaic.Lib.StableHlo.Run

set_option maxRecDepth 16384

noncomputable section

open scoped BigOperators

namespace Cert.KernelIdeal.KRun

open Cert.KernelIdeal Cert.KernelIdeal.Gen Cert.KernelIdeal.KValue Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Before the region: the three inputs flattened -/

theorem V_main_v0 (c : Dev nD) :
    (V m c main_v0 : FVec Ideal S32x2048x128 .f32)
      = shapeCast S32x2048x128 (m ((c : Thread nD τ).loc main_arg0)) shapeCasts_S2x16x2048x128_S32x2048x128 := by
  show StableHlo.after hostOps0 (fun b => m (c, b)) (Proc.devRef .tc main_v0) = _
  after_results
  rfl
theorem V_main_v1 (c : Dev nD) :
    (V m c main_v1 : FVec Ideal S32x2048x128 .f32)
      = shapeCast S32x2048x128 (m ((c : Thread nD τ).loc main_arg1)) shapeCasts_S2x16x2048x128_S32x2048x128 := by
  show StableHlo.after hostOps0 (fun b => m (c, b)) (Proc.devRef .tc main_v1) = _
  after_results
  rfl
theorem V_main_v2 (c : Dev nD) :
    (V m c main_v2 : FVec Ideal S32x2048x128 .f32)
      = shapeCast S32x2048x128 (m ((c : Thread nD τ).loc main_arg2)) shapeCasts_S2x16x2048x128_S32x2048x128 := by
  show StableHlo.after hostOps0 (fun b => m (c, b)) (Proc.devRef .tc main_v2) = _
  after_results
  rfl

/-! ## The whole program as one function of its inputs -/

/-- The program's result: flatten, attend slice by slice, unflatten. -/
def Gk (Q K V : FVec Ideal S2x16x2048x128 .f32) : FVec Ideal S2x16x2048x128 .f32 :=
  shapeCast S2x16x2048x128
    (G3 (shapeCast S32x2048x128 Q shapeCasts_S2x16x2048x128_S32x2048x128) (shapeCast S32x2048x128 K shapeCasts_S2x16x2048x128_S32x2048x128)
      (shapeCast S32x2048x128 V shapeCasts_S2x16x2048x128_S32x2048x128))
    shapeCasts_S32x2048x128_S2x16x2048x128

/-- After the region: the result buffer holds the unflattened output. -/
theorem tail_main_v4 (c : Dev nD) :
    (Pipeline.afterTail₀ cfgs (dats m) 0 (V0 m) [hostOps1] c main_v4 : FVec Ideal S2x16x2048x128 .f32)
      = Gk (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.devRef .tc main_v3)
      = G3 (V m c main_v0) (V m c main_v1) (V m c main_v2) from
    (Pipeline.withArrays_arr spec0 launch0.win.arr_inj c _ _ 3).trans (final3 m c)]
  rw [V_main_v0, V_main_v1, V_main_v2]
  rfl

/-- Every weakly fair execution of the program terminates with the result at `Gk` of the inputs, the inputs unchanged. -/
theorem run : θ_run defs (onTc (τ := τ) (main (F := Ideal))) ⟨m, fun _ => 0, ρ⟩ fun r => ∀ c : Dev nD,
      r.2.mem ((c : Thread nD τ).loc main_v4)
        = Gk (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v4 (Pipeline.mem_restRefs_of main_v4 (by decide) (by decide))).trans (tail_main_v4 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

/-! ## The result read at an element -/

/-- Element `(b, h, q, d)`: the kernel's attention row of query row `(b, h, q)` against batch `b`, head `h`. -/
def g4 (Q K V : FVec Ideal S2x16x2048x128 .f32) (b : Fin 2) (h : Fin 16) (q : Fin 2048) (d : Fin 128) : EReal :=
  Attn.kerRow (Ideal.ofBits .f32 0xFF800000#32) (Ideal.ofBits .f32 0x3F800000#32)
    (fun k : Fin 2048 => ∑ e : Fin 128, (Q (ix4 b h q e) * Ideal.ofBits .f32 0x3DB504F3#32) * K (ix4 b h k e))
    (fun k : Fin 2048 => V (ix4 b h k d))

/-- The flattened array at `(16·b + h, j, e)` is the array at `(b, h, j, e)`: the row-major positions agree. -/
theorem flat_apply (x : FVec Ideal S2x16x2048x128 .f32) (b : Fin 2) (h : Fin 16) (j : Fin 2048) (e : Fin 128)
    (hp : b.val * 16 + h.val < 32) :
    shapeCast S32x2048x128 x shapeCasts_S2x16x2048x128_S32x2048x128 (ix3 (⟨b.val * 16 + h.val, hp⟩ : Fin 32) j e) = x (ix4 b h j e) :=
  shapeCast_apply x _ _ _ (by
    rw [Shape.rowMajor_val_four, Shape.rowMajor_val_three]
    rfl)

theorem Gk_apply (Q K V : FVec Ideal S2x16x2048x128 .f32) (b : Fin 2) (h : Fin 16) (q : Fin 2048) (d : Fin 128) :
    Gk Q K V (ix4 b h q d) = g4 Q K V b h q d := by
  have hp : b.val * 16 + h.val < 32 := by omega
  unfold Gk
  rw [shapeCast_apply _ shapeCasts_S32x2048x128_S2x16x2048x128 (ix4 b h q d) (ix3 (⟨b.val * 16 + h.val, hp⟩ : Fin 32) q d) (by
    rw [Shape.rowMajor_val_three, Shape.rowMajor_val_four]
    rfl)]
  show g3 _ _ _ (⟨b.val * 16 + h.val, hp⟩ : Fin 32) q d = _
  unfold g3 g4
  simp only [flat_apply]

end Cert.KernelIdeal.KRun

end
-- ==== Proof.RefValue.lean ====
/-
  The reference's result, read at one element, at the ideal values.

  The reference computes, for batch `b`, head `h`, query `q`: the scores `(∑ e, Q (b,h,q,e) · K (b,h,k,e)) · scale`;
  their maximum over `k` started from −∞ (and once more the maximum with −∞); the exponentials of the scores less that
  maximum; their sum over `k` started from 0; the quotients; and the sum over `k` of the quotients times
  `V (b,h,k,d)`. Each stage is read at an index through the stage lemmas of the reference's run; the composite at
  `(b, h, q, d)` is the reference's attention row (`Attn.refRow`).
-/
import proofs.«401807_j31035433681706_3_alg».proof.Proof.Gen.ReferenceIdeal.Read
import proofs.«401807_j31035433681706_3_alg».proof.Proof.Softmax

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 x1 x2 : (⟨S2x16x2048x128, .f32⟩ : BufTy).Contents (Elt Ideal))

/-- Score `(b, h, q, k)`: the query row times the key row, times the scale. -/
theorem score_apply (b : Fin 2) (h : Fin 16) (q k : Fin 2048) :
    val_main_v2 (F := Ideal) x0 x1 (ix4 b h q k)
      = (∑ e : Fin 128, x0 (ix4 b h q e) * x1 (ix4 b h k e)) * Ideal.ofBits .f32 0x3DB504F3#32 := by
  rw [val_main_v2_apply, val_main_v0_apply, val_main_v1_apply, val_main_cst_apply]
  have el : ∀ e : Fin 128, lidx_main_v0 (ix4 b h q k) e = ix4 b h q e := fun e => funext fun a => by
    match a with | ⟨0, _⟩ => rfl | ⟨1, _⟩ => rfl | ⟨2, _⟩ => rfl | ⟨3, _⟩ => rfl
  have er : ∀ e : Fin 128, ridx_main_v0 (ix4 b h q k) e = ix4 b h k e := fun e => funext fun a => by
    match a with | ⟨0, _⟩ => rfl | ⟨1, _⟩ => rfl | ⟨2, _⟩ => rfl | ⟨3, _⟩ => rfl
  simp only [el, er]
  rfl

/-- The reduced index `(b, h, q)` with `k` put back on the last axis is `(b, h, q, k)`. -/
theorem lift_key (hr : S2x16x2048x2048.Reduces [3] S2x16x2048) (b : Fin 2) (h : Fin 16) (q : Fin 2048)
    (k : Fin (S2x16x2048x2048.size 3)) : hr.lift (ix3 b h q) k = ix4 b h q (⟨k.val, k.isLt⟩ : Fin 2048) := by
  funext c; apply Fin.ext
  fin_cases c <;> rfl

/-- The row maximum at `(b, h, q)`: the maximum with −∞ of the fold of `max` from −∞ over the row's scores. -/
theorem top_apply (b : Fin 2) (h : Fin 16) (q : Fin 2048) :
    val_main_v5 (F := Ideal) x0 x1 (ix3 b h q)
      = max (Ideal.ofBits .f32 0xFF800000#32)
          (Finset.univ.fold max (Ideal.ofBits .f32 0xFF800000#32) (fun k : Fin 2048 => val_main_v2 (F := Ideal) x0 x1 (ix4 b h q k))) := by
  rw [val_main_v5_apply, val_main_v4_apply, val_main_cst_1_apply]
  unfold val_main_v3
  have hr : S2x16x2048x2048.Reduces [3] S2x16x2048 := by decide
  rw [Host.reduce_eq_fold_single FloatOps.maximumf _ _ reducesTo_S2x16x2048x2048_S2x16x2048_d3 hr h_S_]
  have hf : (val_main_v2 (F := Ideal) x0 x1 ∘ hr.lift (ix3 b h q)) = fun k : Fin 2048 => val_main_v2 (F := Ideal) x0 x1 (ix4 b h q k) :=
    funext fun k => congrArg (val_main_v2 (F := Ideal) x0 x1) (lift_key hr b h q k)
  exact congrArg (fun f => max (Ideal.ofBits .f32 0xFF800000#32) (Finset.fold max (Ideal.ofBits .f32 0xFF800000#32) f (Finset.univ : Finset (Fin 2048)))) hf

/-- The unnormalised weight at `(b, h, q, k)`. -/
theorem weight_apply (b : Fin 2) (h : Fin 16) (q k : Fin 2048) :
    val_main_v9 (F := Ideal) x0 x1 (ix4 b h q k)
      = Ideal.exp (val_main_v2 (F := Ideal) x0 x1 (ix4 b h q k) - val_main_v5 (F := Ideal) x0 x1 (ix3 b h q)) := by
  rw [val_main_v9_apply, val_main_v8_apply, val_main_v7_apply, val_main_v6_apply]
  have e : idx_main_v6 (idx_main_v7 (ix4 b h q k)) = ix3 b h q := funext fun a => by
    match a with | ⟨0, _⟩ => rfl | ⟨1, _⟩ => rfl | ⟨2, _⟩ => rfl
  rw [e]
  rfl

/-- The normaliser at `(b, h, q)`: zero plus the sum of the row's weights. -/
theorem norm_apply (b : Fin 2) (h : Fin 16) (q : Fin 2048) :
    val_main_v10 (F := Ideal) x0 x1 (ix3 b h q)
      = Ideal.ofBits .f32 0x00000000#32 + ∑ k : Fin 2048, val_main_v9 (F := Ideal) x0 x1 (ix4 b h q k) := by
  rw [val_main_v10_apply, val_main_cst_2_apply]
  have e : ∀ k : Fin 2048, idx_main_v10 (ix3 b h q) k = ix4 b h q k := fun k => funext fun a => by
    match a with | ⟨0, _⟩ => rfl | ⟨1, _⟩ => rfl | ⟨2, _⟩ => rfl | ⟨3, _⟩ => rfl
  simp only [e]
  rfl

/-- The normalised weight at `(b, h, q, k)`. -/
theorem prob_apply (b : Fin 2) (h : Fin 16) (q k : Fin 2048) :
    val_main_v13 (F := Ideal) x0 x1 (ix4 b h q k)
      = Ideal.div (val_main_v9 (F := Ideal) x0 x1 (ix4 b h q k)) (val_main_v10 (F := Ideal) x0 x1 (ix3 b h q)) := by
  rw [val_main_v13_apply, val_main_v12_apply, val_main_v11_apply]
  have e : idx_main_v11 (idx_main_v12 (ix4 b h q k)) = ix3 b h q := funext fun a => by
    match a with | ⟨0, _⟩ => rfl | ⟨1, _⟩ => rfl | ⟨2, _⟩ => rfl
  rw [e]
  rfl

/-- The result at `(b, h, q, d)` is the reference's attention row over query `q`'s scaled scores and column `d` of the values. -/
theorem ref_apply (b : Fin 2) (h : Fin 16) (q : Fin 2048) (d : Fin 128) :
    val_main_v14 (F := Ideal) x0 x1 x2 (ix4 b h q d)
      = Attn.refRow (Ideal.ofBits .f32 0xFF800000#32) (Ideal.ofBits .f32 0x00000000#32)
          (fun k : Fin 2048 => (∑ e : Fin 128, x0 (ix4 b h q e) * x1 (ix4 b h k e)) * Ideal.ofBits .f32 0x3DB504F3#32)
          (fun k : Fin 2048 => x2 (ix4 b h k d)) := by
  rw [val_main_v14_apply]
  have el : ∀ k : Fin 2048, lidx_main_v14 (ix4 b h q d) k = ix4 b h q k := fun k => funext fun a => by
    match a with | ⟨0, _⟩ => rfl | ⟨1, _⟩ => rfl | ⟨2, _⟩ => rfl | ⟨3, _⟩ => rfl
  have er : ∀ k : Fin 2048, ridx_main_v14 (ix4 b h q d) k = ix4 b h k d := fun k => funext fun a => by
    match a with | ⟨0, _⟩ => rfl | ⟨1, _⟩ => rfl | ⟨2, _⟩ => rfl | ⟨3, _⟩ => rfl
  unfold Attn.refRow Attn.rowTop
  simp only [el, er, prob_apply, norm_apply, weight_apply, top_apply, score_apply]

end Cert.ReferenceIdeal.RefValue

end
-- ==== Proof.Finite.lean ====
/-
  From the precondition to real numbers.

  The precondition says, of each of the three input arrays, that every entry's absolute value is below +∞: the
  comparison of `max x (−x)` with the word of +∞ is true at every index, the three `all`-reductions are true, and so
  is their conjunction. An extended real whose absolute value is below +∞ is neither +∞ nor −∞, so it is a real number.
-/
import proofs.«401807_j31035433681706_3_alg».proof.Pre_finite_inputs
import proofs.«401807_j31035433681706_3_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx

/-- The f32 word of +∞ denotes the top of the extended reals. -/
theorem ofBits_posInf : Ideal.ofBits .f32 0x7F800000#32 = (⊤ : EReal) := by
  simp [Ideal.ofBits, Ideal.ieee]

/-- An extended real whose absolute value compares below +∞ is a real number. -/
theorem real_of_abs_lt_inf (x : EReal)
    (h : Ideal.cmp .olt (max x (-x)) (Ideal.ofBits .f32 0x7F800000#32) = 1#1) : ∃ r : ℝ, x = (r : EReal) := by
  rw [ofBits_posInf] at h
  induction x using EReal.rec with
  | bot => exfalso; simp [Ideal.cmp] at h
  | coe r => exact ⟨r, rfl⟩
  | top => exfalso; simp [Ideal.cmp] at h

instance : Subsingleton Cert.Pre_finite_inputs.S_.Idx := ⟨fun a b => funext fun d => d.elim0⟩

/-- Under the precondition every entry of every input array is a real number. -/
theorem reals_of_pre (x0 x1 x2 : FVec Ideal Cert.Pre_finite_inputs.S2x16x2048x128 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ix0
  dsimp only [Cert.Pre_finite_inputs.fn] at h0
  obtain ⟨h01, h2⟩ := IntOp.andi_eq_one.1 h0
  obtain ⟨h0', h1⟩ := IntOp.andi_eq_one.1 h01
  refine ⟨fun i => ?_, fun i => ?_, fun i => ?_⟩
  · exact real_of_abs_lt_inf _ (Host.reduce_andi_all _ _ _ _ _ h0' i)
  · exact real_of_abs_lt_inf _ (Host.reduce_andi_all _ _ _ _ _ h1 i)
  · exact real_of_abs_lt_inf _ (Host.reduce_andi_all _ _ _ _ _ h2 i)

end Cert.Finite

end
-- ==== Proof.Bridge.lean ====
/-
  The two programs compute one function of real inputs.

  At element `(b, h, q, d)` the kernel program's result is the kernel's attention row (the scale folded into the
  queries, the weighted sum multiplied by the reciprocal of the normaliser) and the reference's result is the
  reference's attention row (the scale applied to the scores, each weight divided by the normaliser), over the same
  query row, keys and values. Under the precondition all entries are real numbers, the scale's word denotes a real
  number, and the two rows are equal (`Attn.attn_row`).
-/
import proofs.«401807_j31035433681706_3_alg».proof.Proof.KernelRun
import proofs.«401807_j31035433681706_3_alg».proof.Proof.RefValue
import proofs.«401807_j31035433681706_3_alg».proof.Proof.Finite

noncomputable section

open scoped BigOperators

namespace Cert.Bridge

open Idealize.ShloMosaic Idealize.ShloMosaic.ValueIdx

/-- Under the precondition the kernel program's result array is the reference's. -/
theorem result_eq (Q K V : FVec Ideal Cert.KernelIdeal.S2x16x2048x128 .f32)
    (hpre : Cert.Pre_finite_inputs.fn (F := Ideal) Q K V = fun _ => 1#1) :
    Cert.KernelIdeal.KRun.Gk Q K V = Cert.ReferenceIdeal.Read.val_main_v14 (F := Ideal) Q K V := by
  obtain ⟨hQ, hK, hV⟩ := Cert.Finite.reals_of_pre Q K V hpre
  choose Qr hQr using hQ
  choose Kr hKr using hK
  choose Vr hVr using hV
  obtain ⟨cr, hc⟩ := Cert.Attn.ofBits_scale_real
  funext i
  obtain ⟨b, h, q, d, rfl⟩ : ∃ (b : Fin 2) (h : Fin 16) (q : Fin 2048) (d : Fin 128), i = ix4 b h q d :=
    ⟨i 0, i 1, i 2, i 3, eq_ix4 i⟩
  rw [Cert.KernelIdeal.KRun.Gk_apply, Cert.ReferenceIdeal.RefValue.ref_apply]
  unfold Cert.KernelIdeal.KRun.g4
  simp only [hQr, hKr, hVr, hc, Cert.Attn.ofBits_negInf, Cert.Attn.ofBits_one, Ideal.ofBits_zero_f32]
  exact Cert.Attn.attn_row (fun e => Qr (ix4 b h q e)) (fun k e => Kr (ix4 b h k e)) (fun k => Vr (ix4 b h k d)) cr

end Cert.Bridge

end
-- ==== Proof.lean ====
/-
  Scaled dot-product attention: a tiled kernel against softmax(q kᵀ / √d) v, over the extended reals.

  The kernel merges batch and head into 32 slices and, per slice and per block of 1024 query rows, forms the scores
  against all 2048 keys with the scale 128^(−1/2) (as its f32 word) folded into the queries, subtracts each row's
  maximum, exponentiates, sums the row, multiplies the exponentials into the values and scales the result by the
  reciprocal of the row sum. The reference forms the scores, scales them, applies softmax along the keys (maximum
  subtracted, exponentials divided by their sum) and multiplies into the values. On real inputs both are
  (∑ₖ exp(sₖ − M) vₖ) / (∑ₖ exp(sₖ − M)) with the same scores sₖ and row maximum M: the scale moves across the sum over
  the feature axis by distributivity, M is attained so it is real, the row sum is a positive real, and division by it
  is multiplication by its reciprocal. The rounding of the exponentials to bf16 and back, which the idealized kernel
  drops, is the one ledger entry.

  The frames of the two kernel programs are the generated ones; the reference's frame is its generated run. The
  kernel's value is read off the generated frame run block by block (Proof/KernelArray.lean, Proof/KernelRun.lean), the
  reference's off its generated run stage by stage (Proof/RefValue.lean); Proof/Bridge.lean joins them.
-/
import proofs.«401807_j31035433681706_3_alg».proof.Defs
import proofs.«401807_j31035433681706_3_alg».proof.Proof.Gen.Kernel
import proofs.«401807_j31035433681706_3_alg».proof.Proof.Gen.Kernel.Skeleton
import proofs.«401807_j31035433681706_3_alg».proof.Proof.Gen.Kernel.Launch
import proofs.«401807_j31035433681706_3_alg».proof.Proof.Gen.Kernel.Points
import proofs.«401807_j31035433681706_3_alg».proof.Proof.Gen.Kernel.Frame
import proofs.«401807_j31035433681706_3_alg».proof.Proof.Gen.KernelIdeal
import proofs.«401807_j31035433681706_3_alg».proof.Proof.Gen.KernelIdeal.Skeleton
import proofs.«401807_j31035433681706_3_alg».proof.Proof.Gen.KernelIdeal.Launch
import proofs.«401807_j31035433681706_3_alg».proof.Proof.Gen.KernelIdeal.Points
import proofs.«401807_j31035433681706_3_alg».proof.Proof.Gen.KernelIdeal.Frame
import proofs.«401807_j31035433681706_3_alg».proof.Proof.Gen.ReferenceIdeal
import proofs.«401807_j31035433681706_3_alg».proof.Proof.Gen.Pre_finite_inputs
import proofs.«401807_j31035433681706_3_alg».proof.Proof.Gen.ReferenceIdeal.Run
import proofs.«401807_j31035433681706_3_alg».proof.Proof.Gen.ReferenceIdeal.Read
import proofs.«401807_j31035433681706_3_alg».proof.Proof.Bridge
import Idealize.ShloMosaic.Adequacy
import Idealize.ShloMosaic.Init

noncomputable section

namespace Cert.Proof

open Idealize.ShloMosaic Idealize.SL.Sem

/-- The kernel as printed runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one ledger entry: rounding the exponentials to bf16 and widening them back is the identity on extended reals. -/
theorem preserves : Cert.preserves_Kernel_KernelIdeal :=
  IdealRules.truncf_extf.statement _ .f32 .bf16

/-- Both idealized programs end with the same result array: the kernel's run names its result `Gk` of the inputs, the
    reference's run names its composed term, and under the precondition the two are one array. -/
theorem algebraic : Cert.algebraic_KernelIdeal_ReferenceIdeal := by
  intro m ρ m' ρ' hpre hagree
  refine ⟨_, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v14_eq _ _ _).trans (Cert.Bridge.result_eq _ _ _ (hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
